-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S768x384 : Shape := ⟨2, ![768, 384]⟩
abbrev S768x768x128 : Shape := ⟨3, ![768, 768, 128]⟩
abbrev S128x768 : Shape := ⟨2, ![128, 768]⟩
abbrev S128 : Shape := ⟨1, ![128]⟩
abbrev S_ : Shape := ⟨0, ![]⟩

class Facts : Prop where
  bcast_S_S768x384 : S_.BroadcastsInDim S768x384 (![] : Fin 0 → Fin S768x384.rank)
  reducesTo_S768x384_S_d0_1 : S768x384.ReducesTo [0, 1] S_
  h_S_ : 0 < S_.numel
  bcast_S_S768x768x128 : S_.BroadcastsInDim S768x768x128 (![] : Fin 0 → Fin S768x768x128.rank)
  reducesTo_S768x768x128_S_d0_1_2 : S768x768x128.ReducesTo [0, 1, 2] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S768x384 .f32) (main_arg1 : FVec F S768x768x128 .f32) (main_arg2 : FVec F S128x768 .f32) (main_arg3 : FVec F S128 .f32) : IVec S_ 1 :=
  let main_v0 : FVec F S768x384 .f32 := Host.absf main_arg0
  let main_cst : FVec F S_ .f32 := constant S_ .f32 0x7F800000#32
  let main_v1 : FVec F S768x384 .f32 := broadcastInDim S768x384 ![] bcast_S_S768x384 main_cst
  let main_v2 : IVec S768x384 1 := cmpf .olt main_v0 main_v1
  let main_c : IVec S_ 1 := constantI S_ 1 1#1
  let main_v3 : IVec S_ 1 := (fun x v => Host.reduce IntOp.andi x v reducesTo_S768x384_S_d0_1 h_S_) main_v2 main_c
  let main_v4 : FVec F S768x768x128 .f32 := Host.absf main_arg1
  let main_cst_0 : FVec F S_ .f32 := constant S_ .f32 0x7F800000#32
  let main_v5 : FVec F S768x768x128 .f32 := broadcastInDim S768x768x128 ![] bcast_S_S768x768x128 main_cst_0
  let main_v6 : IVec S768x768x128 1 := cmpf .olt main_v4 main_v5
  let main_c_1 : IVec S_ 1 := constantI S_ 1 1#1
  let main_v7 : IVec S_ 1 := (fun x v => Host.reduce IntOp.andi x v reducesTo_S768x768x128_S_d0_1_2 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S768x384 : Shape := ⟨2, ![768, 384]⟩
abbrev S768x768x128 : Shape := ⟨3, ![768, 768, 128]⟩
abbrev S128x768 : Shape := ⟨2, ![128, 768]⟩
abbrev S128 : Shape := ⟨1, ![128]⟩
abbrev S128x384 : Shape := ⟨2, ![128, 384]⟩
abbrev S768x128 : Shape := ⟨2, ![768, 128]⟩
abbrev S384x128 : Shape := ⟨2, ![384, 128]⟩
abbrev S1x128 : Shape := ⟨2, ![1, 128]⟩
abbrev S192x128 : Shape := ⟨2, ![192, 128]⟩
abbrev S128x128 : Shape := ⟨2, ![128, 128]⟩
abbrev S192x128x128 : Shape := ⟨3, ![192, 128, 128]⟩
abbrev S192x1x128 : Shape := ⟨3, ![192, 1, 128]⟩
abbrev S1x128x128 : Shape := ⟨3, ![1, 128, 128]⟩

abbrev nBuf : Space → Nat
  | .hbm => 9
  | .vmem => 14
  | .smem => 0
  | _ => 0

abbrev bufTy : (tb : Table) → Fin (tcTables nBuf tb) → BufTy
  | .hbm, ⟨0, _⟩ => ⟨S768x384, .f32⟩
  | .hbm, ⟨1, _⟩ => ⟨S768x768x128, .f32⟩
  | .hbm, ⟨2, _⟩ => ⟨S128x768, .f32⟩
  | .hbm, ⟨3, _⟩ => ⟨S128, .f32⟩
  | .hbm, ⟨4, _⟩ => ⟨S128x384, .f32⟩
  | .hbm, ⟨5, _⟩ => ⟨S128x384, .f32⟩
  | .hbm, ⟨6, _⟩ => ⟨S768x128, .f32⟩
  | .hbm, ⟨7, _⟩ => ⟨S768x128, .f32⟩
  | .hbm, ⟨8, _⟩ => ⟨S768x768x128, .f32⟩
  | .local _ .vmem, ⟨0, _⟩ => ⟨S768x384, .f32⟩
  | .local _ .vmem, ⟨1, _⟩ => ⟨S128x384, .f32⟩
  | .local _ .vmem, ⟨2, _⟩ => ⟨S128x384, .f32⟩
  | .local _ .vmem, ⟨3, _⟩ => ⟨S128, .f32⟩
  | .local _ .vmem, ⟨4, _⟩ => ⟨S768x128, .f32⟩
  | .local _ .vmem, ⟨5, _⟩ => ⟨S768x128, .f32⟩
  | .local _ .vmem, ⟨6, _⟩ => ⟨S192x128, .f32⟩
  | .local _ .vmem, ⟨7, _⟩ => ⟨S192x128, .f32⟩
  | .local _ .vmem, ⟨8, _⟩ => ⟨S128x128, .f32⟩
  | .local _ .vmem, ⟨9, _⟩ => ⟨S128x128, .f32⟩
  | .local _ .vmem, ⟨10, _⟩ => ⟨S192x128x128, .f32⟩
  | .local _ .vmem, ⟨11, _⟩ => ⟨S192x128x128, .f32⟩
  | .local _ .vmem, ⟨12, _⟩ => ⟨S192x128x128, .f32⟩
  | .local _ .vmem, ⟨13, _⟩ => ⟨S192x128x128, .f32⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![4, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S192x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S192x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S128x768_S128x384_0_0 : S128x768.Slices ![0, 0] S128x384
  slices_S128x768_S128x384_0_384 : S128x768.Slices ![0, 384] S128x384
  inb_S768x384_S768x384_0_0 : ∀ a, (![0, 0] : Fin 2 → Nat) a + S768x384.size a ≤ S768x384.size a
  h_S768x384 : 0 < S768x384.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S128_S128_0 : ∀ a, (![0] : Fin 1 → Nat) a + S128.size a ≤ S128.size a
  h_S128 : 0 < S128.numel
  transposes_S128x384_p1_0_S384x128 : S128x384.Transposes [1, 0] S384x128
  shapeCasts_S128_S1x128 : S128.ShapeCasts S1x128
  broadcasts_S1x128_S768x128 : S1x128.Broadcasts S768x128
  inb_S768x128_S768x128_0_0 : ∀ a, (![0, 0] : Fin 2 → Nat) a + S768x128.size a ≤ S768x128.size a
  h_S768x128 : 0 < S768x128.numel
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S192x128x128_S192x128x128_0_0_0 : ∀ a, (![0, 0, 0] : Fin 3 → Nat) a + S192x128x128.size a ≤ S192x128x128.size a
  h_S192x128x128 : 0 < S192x128x128.numel
  shapeCasts_S192x128_S192x1x128 : S192x128.ShapeCasts S192x1x128
  broadcasts_S192x1x128_S192x128x128 : S192x1x128.Broadcasts S192x128x128
  shapeCasts_S128x128_S1x128x128 : S128x128.ShapeCasts S1x128x128
  broadcasts_S1x128x128_S192x128x128 : S1x128x128.Broadcasts S192x128x128
  dot_S768x384_S384x128_S768x128_1_0_0_1_n_n_wf : DotDims.WF S768x384 S384x128 S768x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S768x384.size a ≤ S768x384.size a
  hwx0_0 : ∀ i : grid0.Coords, EltTy.bits .f32 = 32 ∨ (Rect.block (s := S768x384) S768x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x128.size a ≤ S768x128.size a
  hwx0_4 : ∀ i : grid0.Coords, EltTy.bits .f32 = 32 ∨ (Rect.block (s := S768x128) S768x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x128.size a ≤ S768x128.size a
  hwx0_5 : ∀ i : grid0.Coords, EltTy.bits .f32 = 32 ∨ (Rect.block (s := S768x128) S768x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S192x128.size a ≤ S768x128.size a
  hwx1_0 : ∀ i : grid1.Coords, EltTy.bits .f32 = 32 ∨ (Rect.block (s := S768x128) S192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S768x128.size a
  hwx1_1 : ∀ i : grid1.Coords, EltTy.bits .f32 = 32 ∨ (Rect.block (s := S768x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S192x128x128.size a ≤ S768x768x128.size a
  hwx1_2 : ∀ i : grid1.Coords, EltTy.bits .f32 = 32 ∨ (Rect.block (s := S768x768x128) S192x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S192x128x128.size a ≤ S768x768x128.size a
  hwx1_3 : ∀ i : grid1.Coords, EltTy.bits .f32 = 32 ∨ (Rect.block (s := S768x768x128) S192x128x128.size (cc1_transform_3 i) (hinb1_3 i)).WholeWords (EltTy.packing .f32)

variable [Facts₀]

def dot_S768x384_S384x128_S768x128_1_0_0_1_n_n : DotDims S768x384 S384x128 S768x128 where
  lhsContracting := [1]
  rhsContracting := [0]
  lhsNonContracting := [0]
  rhsNonContracting := [1]
  lhsBatch := []
  rhsBatch := []
  wf := dot_S768x384_S384x128_S768x128_1_0_0_1_n_n_wf

abbrev win0_0 : Pipeline.Window sig grid0 :=
  Pipeline.Window.ofSpec (Memref.whole main_arg0) S768x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S768x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S768x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S192x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S192x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S768x384 : Shape := ⟨2, ![768, 384]⟩
abbrev S768x768x128 : Shape := ⟨3, ![768, 768, 128]⟩
abbrev S128x768 : Shape := ⟨2, ![128, 768]⟩
abbrev S128 : Shape := ⟨1, ![128]⟩
abbrev S128x384 : Shape := ⟨2, ![128, 384]⟩
abbrev S768x128 : Shape := ⟨2, ![768, 128]⟩
abbrev S768x1x128 : Shape := ⟨3, ![768, 1, 128]⟩
abbrev S1x768x128 : Shape := ⟨3, ![1, 768, 128]⟩
abbrev S1x1x128 : Shape := ⟨3, ![1, 1, 128]⟩

abbrev nBuf : Space → Nat
  | .hbm => 17
  | .vmem => 0
  | .smem => 0
  | _ => 0

abbrev bufTy : (tb : Table) → Fin (tcTables nBuf tb) → BufTy
  | .hbm, ⟨0, _⟩ => ⟨S768x384, .f32⟩
  | .hbm, ⟨1, _⟩ => ⟨S768x768x128, .f32⟩
  | .hbm, ⟨2, _⟩ => ⟨S128x768, .f32⟩
  | .hbm, ⟨3, _⟩ => ⟨S128, .f32⟩
  | .hbm, ⟨4, _⟩ => ⟨S128x384, .f32⟩
  | .hbm, ⟨5, _⟩ => ⟨S128x384, .f32⟩
  | .hbm, ⟨6, _⟩ => ⟨S768x128, .f32⟩
  | .hbm, ⟨7, _⟩ => ⟨S768x128, .f32⟩
  | .hbm, ⟨8, _⟩ => ⟨S768x1x128, .f32⟩
  | .hbm, ⟨9, _⟩ => ⟨S768x768x128, .f32⟩
  | .hbm, ⟨10, _⟩ => ⟨S768x768x128, .f32⟩
  | .hbm, ⟨11, _⟩ => ⟨S1x768x128, .f32⟩
  | .hbm, ⟨12, _⟩ => ⟨S768x768x128, .f32⟩
  | .hbm, ⟨13, _⟩ => ⟨S768x768x128, .f32⟩
  | .hbm, ⟨14, _⟩ => ⟨S1x1x128, .f32⟩
  | .hbm, ⟨15, _⟩ => ⟨S768x768x128, .f32⟩
  | .hbm, ⟨16, _⟩ => ⟨S768x768x128, .f32⟩
  | _, _ => ⟨S768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  slices_S128x768_S128x384_0_0 : S128x768.Slices ![0, 0] S128x384
  slices_S128x768_S128x384_0_384 : S128x768.Slices ![0, 384] S128x384
  bcast_S768x128_S768x1x128_0_2 : S768x128.BroadcastsInDim S768x1x128 (![0, 2] : Fin 2 → Fin S768x1x128.rank)
  bcast_S768x1x128_S768x768x128_0_1_2 : S768x1x128.BroadcastsInDim S768x768x128 (![0, 1, 2] : Fin 3 → Fin S768x768x128.rank)
  bcast_S768x128_S1x768x128_1_2 : S768x128.BroadcastsInDim S1x768x128 (![1, 2] : Fin 2 → Fin S1x768x128.rank)
  bcast_S1x768x128_S768x768x128_0_1_2 : S1x768x128.BroadcastsInDim S768x768x128 (![0, 1, 2] : Fin 3 → Fin S768x768x128.rank)
  bcast_S128_S1x1x128_2 : S128.BroadcastsInDim S1x1x128 (![2] : Fin 1 → Fin S1x1x128.rank)
  bcast_S1x1x128_S768x768x128_0_1_2 : S1x1x128.BroadcastsInDim S768x768x128 (![0, 1, 2] : Fin 3 → Fin S768x768x128.rank)
  dot_S768x384_S128x384_S768x128_1_1_0_0_n_n_wf : DotDims.WF S768x384 S128x384 S768x128 [1] [1] [0] [0] [] []

variable [Facts₀]

def dot_S768x384_S128x384_S768x128_1_1_0_0_n_n : DotDims S768x384 S128x384 S768x128 where
  lhsContracting := [1]
  rhsContracting := [1]
  lhsNonContracting := [0]
  rhsNonContracting := [0]
  lhsBatch := []
  rhsBatch := []
  wf := dot_S768x384_S128x384_S768x128_1_1_0_0_n_n_wf

class Facts : Prop extends Facts₀ where

variable [Facts]
-- ==== Proof.Spec.lean ====
/-
  The pair update as ONE function of the argument arrays, over the extended reals.

  With `s : [768, 384]`, `z : [768, 768, 128]`, the two halves `wa, wb : [128, 384]` of the weight and the bias
  `b : [128]`, entry `(i, j, p)` of the result is

      z[i, j, p] + Σ_k s[i, k] · wa[p, k] + Σ_k s[j, k] · wb[p, k] + b[p].

  One program adds the bias to the row projection before it meets `z`; the other adds it last. The two
  groupings agree on the extended reals because their addition is commutative and associative (no cancelling and no
  distributing is asked, so nothing depends on the entries being finite).
-/
import Idealize.ShloMosaic.PureOps.Ideal
import Idealize.ShloMosaic.Lib.ValueIdx

noncomputable section

namespace Cert.PairSpec

open Idealize.ShloMosaic Idealize.ShloMosaic.ValueIdx

/-- The shapes of the arguments, of a weight half and of a projection. -/
abbrev Ss : Shape := ⟨2, ![768, 384]⟩
abbrev Sz : Shape := ⟨3, ![768, 768, 128]⟩
abbrev Sh : Shape := ⟨2, ![128, 384]⟩
abbrev Sb : Shape := ⟨1, ![128]⟩
abbrev Sp : Shape := ⟨2, ![768, 128]⟩

/-- Row `r` of `s` against row `p` of a weight half: `Σ_k s[r, k] · w[p, k]`. -/
def dotRow (s : Ss.Idx → EReal) (w : Sh.Idx → EReal) (r : Fin 768) (p : Fin 128) : EReal :=
  ∑ k : Fin 384, s (ix2 r k) * w (ix2 p k)

/-- The row projection with the bias folded in, as an array: `(r, p) ↦ Σ_k s[r, k] · wa[p, k] + b[p]`. -/
def rowArr (s : Ss.Idx → EReal) (wa : Sh.Idx → EReal) (b : Sb.Idx → EReal) : Sp.Idx → EReal :=
  fun i => dotRow s wa (i 0) (i 1) + b (ix1 (i 1))

/-- The column projection as an array: `(r, p) ↦ Σ_k s[r, k] · wb[p, k]`. -/
def colArr (s : Ss.Idx → EReal) (wb : Sh.Idx → EReal) : Sp.Idx → EReal :=
  fun i => dotRow s wb (i 0) (i 1)

/-- The broadcast add of two `[768, 128]` arrays onto `z`: `(i, j, p) ↦ (z[i, j, p] + row[i, p]) + col[j, p]`. -/
def pairAdd (row col : Sp.Idx → EReal) (z : Sz.Idx → EReal) : Sz.Idx → EReal :=
  fun i => (z i + row (ix2 (i 0) (i 2))) + col (ix2 (i 1) (i 2))

/-- The result, bias grouped with the row projection. -/
def pairUpdate (s : Ss.Idx → EReal) (z : Sz.Idx → EReal) (wa wb : Sh.Idx → EReal) (b : Sb.Idx → EReal) : Sz.Idx → EReal :=
  pairAdd (rowArr s wa b) (colArr s wb) z

/-- The result at an index, written out. -/
theorem pairUpdate_apply (s : Ss.Idx → EReal) (z : Sz.Idx → EReal) (wa wb : Sh.Idx → EReal) (b : Sb.Idx → EReal) (i : Sz.Idx) :
    pairUpdate s z wa wb b i = (z i + (dotRow s wa (i 0) (i 2) + b (ix1 (i 2)))) + dotRow s wb (i 1) (i 2) := rfl

/-- Regrouping: the bias may as well be added last. -/
theorem bias_last (zv r c bv : EReal) : (zv + (r + bv)) + c = ((zv + r) + c) + bv := by
  rw [← add_assoc zv r bv, add_right_comm (zv + r) bv c]

end Cert.PairSpec

end
-- ==== Proof.AddRegion.lean ====
/-
  What the second region (the broadcast add, grid 4 × 6) leaves in its output array, for ANY contents `V` the region
  finds in its three input arrays.

  Point `t = (a, b)` of the grid loads rows `192a … 192a+191` of the row array, rows `128b … 128b+127` of the column array
  and the block `(a, b, 0)` of `z` (192 × 128 × 128), and stores `z_blk + row_blk[:, None, :] + col_blk[None, :, :]` as block
  `(a, b, 0)` of the output. At a block index `(x, y, p)` the stored value is therefore
  `(z[192a+x, 128b+y, p] + row[192a+x, p]) + col[128b+y, p]`: block `t` of ONE whole-array function, the broadcast add
  `pairAdd row col z`. The 24 blocks tile the `[768, 768, 128]` array, so that function is what the array holds at the end.
-/
import proofs.«140986_j17609365914012_1_alg».proof.Proof.Gen.KernelIdeal.Frame
import proofs.«140986_j17609365914012_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.AddRegion

open Cert.KernelIdeal Cert.KernelIdeal.Gen
open Idealize.ShloMosaic Idealize.ShloMosaic.TcCoe Idealize.SL.Sem Idealize.ShloMosaic.ValueIdx Cert.PairSpec
open Idealize.ShloMosaic.Pipeline (Dat Cfg Window)

/-! ## The two broadcasts read at a block index -/

/-- A `[192, 128]` block viewed `[192, 1, 128]` and broadcast along the middle axis reads, at `(x, y, p)`, the block at `(x, p)`. -/
theorem bcast_mid (v : S192x128.Idx → EReal) (x : Fin 192) (y p : Fin 128) :
    broadcastTo S192x128x128 (shapeCast S192x1x128 v shapeCasts_S192x128_S192x1x128) broadcasts_S192x1x128_S192x128x128
      (ix3 x y p) = v (ix2 x p) := by
  refine (broadcastTo_apply _ broadcasts_S192x1x128_S192x128x128 (ix3 x y p) (ix3 x (0 : Fin 1) p) (fun d => ?_)).trans ?_
  · match d with
    | ⟨0, _⟩ => show x.val = if (192 : ℕ) = 1 then 0 else x.val; rw [if_neg (by decide)]
    | ⟨1, _⟩ => show (0 : ℕ) = if (1 : ℕ) = 1 then 0 else y.val; rw [if_pos rfl]
    | ⟨2, _⟩ => show p.val = if (128 : ℕ) = 1 then 0 else p.val; rw [if_neg (by decide)]
  · refine shapeCast_apply v shapeCasts_S192x128_S192x1x128 (ix3 x (0 : Fin 1) p) (ix2 x p) ?_
    rw [Shape.rowMajor_val_two, Shape.rowMajor_val_three]
    show x.val * 128 + p.val = (x.val * 1 + 0) * 128 + p.val
    omega

/-- A `[128, 128]` block viewed `[1, 128, 128]` and broadcast along the leading axis reads, at `(x, y, p)`, the block at `(y, p)`. -/
theorem bcast_lead (v : S128x128.Idx → EReal) (x : Fin 192) (y p : Fin 128) :
    broadcastTo S192x128x128 (shapeCast S1x128x128 v shapeCasts_S128x128_S1x128x128) broadcasts_S1x128x128_S192x128x128
      (ix3 x y p) = v (ix2 y p) := by
  refine (broadcastTo_apply _ broadcasts_S1x128x128_S192x128x128 (ix3 x y p) (ix3 (0 : Fin 1) y p) (fun d => ?_)).trans ?_
  · match d with
    | ⟨0, _⟩ => show (0 : ℕ) = if (1 : ℕ) = 1 then 0 else x.val; rw [if_pos rfl]
    | ⟨1, _⟩ => show y.val = if (128 : ℕ) = 1 then 0 else y.val; rw [if_neg (by decide)]
    | ⟨2, _⟩ => show p.val = if (128 : ℕ) = 1 then 0 else p.val; rw [if_neg (by decide)]
  · exact shapeCast_ab_1ab_apply v shapeCasts_S128x128_S1x128x128 (0 : Fin 1) y p

/-! ## The body's stored value at a block index -/

/-- The body adds to `z`'s block the row block broadcast along the middle axis, then the column block broadcast along
    the leading axis. -/
theorem pay_at (x0 : Vec Ideal S192x128 .f32) (x1 : Vec Ideal S128x128 .f32) (x2 : Vec Ideal S192x128x128 .f32)
    (a : Fin 192) (b : Fin 128) (p : Fin 128) :
    k1_pay1 x0 x1 x2 (ix3 a b p) = (x2 (ix3 a b p) + x0 (ix2 a p)) + x1 (ix2 b p) := by
  unfold k1_pay1
  rw [addf_apply, addf_apply, shapeCast_self, shapeCast_self, bcast_mid, bcast_lead]

/-- The same against whole arrays `R`, `C`, `Z`: if the three loaded blocks read those arrays where the output block's
    index `i` says, the stored value at the block index `(a, b, p)` is the broadcast add at `i`. -/
theorem pay_block (R C : Sp.Idx → EReal) (Z : Sz.Idx → EReal)
    (x0 : Vec Ideal S192x128 .f32) (x1 : Vec Ideal S128x128 .f32) (x2 : Vec Ideal S192x128x128 .f32)
    (a : Fin 192) (b p : Fin 128) (i : S768x768x128.Idx)
    (h2 : x2 (ix3 a b p) = Z i) (h0 : x0 (ix2 a p) = R (ix2 (i 0) (i 2)))
    (h1 : x1 (ix2 b p) = C (ix2 (i 1) (i 2))) :
    k1_pay1 x0 x1 x2 (ix3 a b p) = pairAdd R C Z i := by
  rw [pay_at, h2, h0, h1]
  rfl

/-! ## From the blocks to the array -/

section Array
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 24 grid points: the row window moves with the output's leading block
    index, the column window with its middle one, `z`'s window with all three, and every trailing block index is 0. -/
theorem idx_facts : ∀ t : Fin cfg1.N,
    win1_0.index t (0 : Fin 2) = win1_3.index t (0 : Fin 3)
    ∧ win1_0.index t (1 : Fin 2) = 0
    ∧ win1_1.index t (0 : Fin 2) = win1_3.index t (1 : Fin 3)
    ∧ win1_1.index t (1 : Fin 2) = 0
    ∧ win1_2.index t (0 : Fin 3) = win1_3.index t (0 : Fin 3)
    ∧ win1_2.index t (1 : Fin 3) = win1_3.index t (1 : Fin 3)
    ∧ win1_2.index t (2 : Fin 3) = win1_3.index t (2 : Fin 3)
    ∧ win1_3.index t (2 : Fin 3) = 0 :=
  (by decide +kernel : ∀ t : Fin grid1.N, _)

/-- Every block `(q0, q1, 0)` of the output is some point's. -/
theorem idx_onto : ∀ (q0 : Fin 4) (q1 : Fin 6), ∃ t : Fin cfg1.N, win1_3.index t = ![q0.val, q1.val, 0] :=
  (by decide +kernel : ∀ (q0 : Fin 4) (q1 : Fin 6), ∃ t : Fin grid1.N, win1_3.index t = ![q0.val, q1.val, 0])

/-- What point `t` writes back is block `t` of the broadcast add of the three arrays as the region finds them. -/
theorem flushed_eq (c : Dev nD) (t : Fin cfg1.N) :
    (dat1 V c).flushed 3 t = ((cfg1.win 3).blk t).view.read (Elt Ideal)
      (pairAdd (V c main_v2_0) (V c main_v2_1) (V c main_arg1)) := by
  show (cfg1.win 3).cut (grid1.coords t) ((dat1 V c).after 3 t) = _
  rw [after1_3]
  unfold out1_3
  rw [View.canon_unit_zero zeros3]
  simp only [View.ld_unit_zero (S := S192x128) zeros2, View.ld_unit_zero (S := S128x128) zeros2,
    View.ld_unit_zero (S := S192x128x128) zeros3]
  obtain ⟨e0, e1, e2, e3, e4, e5, e6, e7⟩ := idx_facts t
  funext j
  obtain ⟨a, b, p, rfl⟩ : ∃ (a : Fin 192) (b p : Fin 128), j = ix3 a b p := ⟨j 0, j 1, j 2, eq_ix3 j⟩
  show k1_pay1 (iblk1 V c 0 t) (iblk1 V c 1 t) (iblk1 V c 2 t) (ix3 a b p)
    = pairAdd (V c main_v2_0) (V c main_v2_1) (V c main_arg1) (((cfg1.win 3).blk t).view.emb (ix3 a b p))
  refine pay_block _ _ _ _ _ _ a b p _ ?_ ?_ ?_
  · show V c main_arg1 (((cfg1.win 2).blk t).view.emb (ix3 a b p)) = V c main_arg1 (((cfg1.win 3).blk t).view.emb (ix3 a b p))
    refine congrArg _ (funext fun d => Fin.ext ?_)
    match d with
    | ⟨0, _⟩ => show win1_2.index t (0 : Fin 3) * 192 + 1 * a.val = win1_3.index t (0 : Fin 3) * 192 + 1 * a.val; omega
    | ⟨1, _⟩ => show win1_2.index t (1 : Fin 3) * 128 + 1 * b.val = win1_3.index t (1 : Fin 3) * 128 + 1 * b.val; omega
    | ⟨2, _⟩ => show win1_2.index t (2 : Fin 3) * 128 + 1 * p.val = win1_3.index t (2 : Fin 3) * 128 + 1 * p.val; omega
  · show V c main_v2_0 (((cfg1.win 0).blk t).view.emb (ix2 a p)) = V c main_v2_0 _
    refine congrArg _ (funext fun d => Fin.ext ?_)
    match d with
    | ⟨0, _⟩ => show win1_0.index t (0 : Fin 2) * 192 + 1 * a.val = win1_3.index t (0 : Fin 3) * 192 + 1 * a.val; omega
    | ⟨1, _⟩ => show win1_0.index t (1 : Fin 2) * 128 + 1 * p.val = win1_3.index t (2 : Fin 3) * 128 + 1 * p.val; omega
  · show V c main_v2_1 (((cfg1.win 1).blk t).view.emb (ix2 b p)) = V c main_v2_1 _
    refine congrArg _ (funext fun d => Fin.ext ?_)
    match d with
    | ⟨0, _⟩ => show win1_1.index t (0 : Fin 2) * 128 + 1 * b.val = win1_3.index t (1 : Fin 3) * 128 + 1 * b.val; omega
    | ⟨1, _⟩ => show win1_1.index t (1 : Fin 2) * 128 + 1 * p.val = win1_3.index t (2 : Fin 3) * 128 + 1 * p.val; omega

/-- An index of the array is in point `t`'s block iff each coordinate is in the block's range on its axis. -/
theorem mem_blk (t : Fin cfg1.N) (i : S768x768x128.Idx) :
    i ∈ ((cfg1.win 3).blk t).view.set ↔ ∀ d : Fin 3, win1_3.index t d * S192x128x128.size d ≤ (i d).val
      ∧ (i d).val < win1_3.index t d * S192x128x128.size d + S192x128x128.size d := by
  show i ∈ ((View.whole main_v3).slice (win1_3.rect t)).set ↔ _
  rw [View.set_slice_whole, Rect.mem_set_unit]
  exact Iff.rfl

/-- The 4 × 6 blocks tile the array: index `(x, y, p)` lies in the block of the point with block index `(x / 192, y / 128, 0)`. -/
theorem cover (i : S768x768x128.Idx) :
    ∃ t : Fin cfg1.N, (cfg1.win 3).flush t = true ∧ i ∈ ((cfg1.win 3).blk t).view.set := by
  have hi0 : (i 0).val < 768 := (i 0).isLt
  have hi1 : (i 1).val < 768 := (i 1).isLt
  have hi2 : (i 2).val < 128 := (i 2).isLt
  obtain ⟨t, ht⟩ := idx_onto ⟨(i 0).val / 192, by omega⟩ ⟨(i 1).val / 128, by omega⟩
  have q0 : win1_3.index t (0 : Fin 3) = (i 0).val / 192 := congrFun ht 0
  have q1 : win1_3.index t (1 : Fin 3) = (i 1).val / 128 := congrFun ht 1
  have q2 : win1_3.index t (2 : Fin 3) = 0 := congrFun ht 2
  refine ⟨t, flush1_3 t, ?_⟩
  rw [mem_blk]
  intro d
  match d with
  | ⟨0, _⟩ => show win1_3.index t (0 : Fin 3) * 192 ≤ (i 0).val ∧ (i 0).val < win1_3.index t (0 : Fin 3) * 192 + 192; omega
  | ⟨1, _⟩ => show win1_3.index t (1 : Fin 3) * 128 ≤ (i 1).val ∧ (i 1).val < win1_3.index t (1 : Fin 3) * 128 + 128; omega
  | ⟨2, _⟩ => show win1_3.index t (2 : Fin 3) * 128 ≤ (i 2).val ∧ (i 2).val < win1_3.index t (2 : Fin 3) * 128 + 128; omega

/-- THE ARRAY after the region: the broadcast add of the row array, the column array and `z` as the region found them. -/
theorem final (c : Dev nD) :
    (dat1 V c).arrAt 3 cfg1.N = pairAdd (V c main_v2_0) (V c main_v2_1) (V c main_arg1) :=
  (dat1 V c).arrAt_eq_of_cover 3 _ (fun t _ => flushed_eq V c t) cover

end Array

end Cert.KernelIdeal.AddRegion

end
-- ==== Proof.ProjRegion.lean ====
/-
  What the first region (the two projections, ONE grid point, every block its whole array) leaves in its two output
  arrays, for ANY contents `V` the region finds in its four input arrays.

  The body transposes each `[128, 384]` weight half to `[384, 128]` and multiplies `s` (`[768, 384]`) by it into a zero
  accumulator, contracting the feature axis: at `(r, p)` that is `Σ_k s[r, k] · w[p, k]`. To the first product it adds the
  bias, viewed `[1, 128]` and broadcast down the rows, before storing it; the second product is stored as it is. The
  region's one point writes both whole arrays back, so they end as the row array (bias folded in) and the column array.
-/
import proofs.«140986_j17609365914012_1_alg».proof.Proof.Gen.KernelIdeal.Frame
import proofs.«140986_j17609365914012_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjRegion

open Cert.KernelIdeal Cert.KernelIdeal.Gen
open Idealize.ShloMosaic Idealize.ShloMosaic.TcCoe Idealize.SL.Sem Idealize.ShloMosaic.ValueIdx Cert.PairSpec
open Idealize.ShloMosaic.Pipeline (Dat Cfg Window)

/-! ## The matrix product read at an index -/

/-- The product's left operand is read at the output's row … -/
theorem lhs_ax0 (i : S768x128.Idx) (q : dot_S768x384_S384x128_S768x128_1_0_0_1_n_n.contr.Idx) :
    (dot_S768x384_S384x128_S768x128_1_0_0_1_n_n.lhsIdx i q 0).val = (i 0).val := by
  unfold DotDims.lhsIdx
  rw [dif_neg (show ¬(0 : Fin S768x384.rank) ∈ dot_S768x384_S384x128_S768x128_1_0_0_1_n_n.lhsBatch by decide), dif_pos (show (0 : Fin S768x384.rank) ∈ dot_S768x384_S384x128_S768x128_1_0_0_1_n_n.lhsNonContracting by decide)]
  rfl
/-- … and the contraction index; -/
theorem lhs_ax1 (i : S768x128.Idx) (q : dot_S768x384_S384x128_S768x128_1_0_0_1_n_n.contr.Idx) :
    (dot_S768x384_S384x128_S768x128_1_0_0_1_n_n.lhsIdx i q 1).val = (q ⟨0, by decide⟩).val :=
  dot_S768x384_S384x128_S768x128_1_0_0_1_n_n.lhsIdx_val_of_single rfl i q
/-- the right operand at the contraction index … -/
theorem rhs_ax0 (i : S768x128.Idx) (q : dot_S768x384_S384x128_S768x128_1_0_0_1_n_n.contr.Idx) :
    (dot_S768x384_S384x128_S768x128_1_0_0_1_n_n.rhsIdx i q 0).val = (q ⟨0, by decide⟩).val :=
  dot_S768x384_S384x128_S768x128_1_0_0_1_n_n.rhsIdx_val_of_single rfl i q
/-- … and the output's column. -/
theorem rhs_ax1 (i : S768x128.Idx) (q : dot_S768x384_S384x128_S768x128_1_0_0_1_n_n.contr.Idx) :
    (dot_S768x384_S384x128_S768x128_1_0_0_1_n_n.rhsIdx i q 1).val = (i 1).val := by
  unfold DotDims.rhsIdx
  rw [dif_neg (show ¬(1 : Fin S384x128.rank) ∈ dot_S768x384_S384x128_S768x128_1_0_0_1_n_n.rhsBatch by decide), dif_pos (show (1 : Fin S384x128.rank) ∈ dot_S768x384_S384x128_S768x128_1_0_0_1_n_n.rhsNonContracting by decide)]
  rfl

/-- Into the zero accumulator the product at `(r, p)` is `Σ_k x[r, k] · y[k, p]` over the extended reals. -/
theorem matmul_at (x : FVec Ideal S768x384 .f32) (y : FVec Ideal S384x128 .f32) (r : Fin 768) (p : Fin 128) :
    matmul dot_S768x384_S384x128_S768x128_1_0_0_1_n_n none x y (constant (F := Ideal) S768x128 .f32 0x00000000#32) (ix2 r p)
      = ∑ k : Fin 384, x (ix2 r k) * y (ix2 k p) := by
  simp only [matmul]
  rw [Ideal.matmul_constant_zero_apply, ← Equiv.sum_comp (ValueIdx.contrEquiv1 dot_S768x384_S384x128_S768x128_1_0_0_1_n_n 384 rfl rfl).symm]
  refine Finset.sum_congr rfl fun k _ => ?_
  have hk := ValueIdx.contrEquiv1_symm_val dot_S768x384_S384x128_S768x128_1_0_0_1_n_n 384 rfl rfl k
  have el : dot_S768x384_S384x128_S768x128_1_0_0_1_n_n.lhsIdx (ix2 r p) ((ValueIdx.contrEquiv1 dot_S768x384_S384x128_S768x128_1_0_0_1_n_n 384 rfl rfl).symm k) = ix2 r k := funext fun a => Fin.ext (by
    match a with
    | ⟨0, _⟩ => exact lhs_ax0 _ _
    | ⟨1, _⟩ => exact (lhs_ax1 _ _).trans hk)
  have er : dot_S768x384_S384x128_S768x128_1_0_0_1_n_n.rhsIdx (ix2 r p) ((ValueIdx.contrEquiv1 dot_S768x384_S384x128_S768x128_1_0_0_1_n_n 384 rfl rfl).symm k) = ix2 k p := funext fun a => Fin.ext (by
    match a with
    | ⟨0, _⟩ => exact (rhs_ax0 _ _).trans hk
    | ⟨1, _⟩ => exact rhs_ax1 _ _)
  rw [el, er]

/-! ## The two stored values at an index -/

/-- A weight half transposed reads, at `(k, p)`, the half at `(p, k)`. -/
theorem wT_at (w : Vec Ideal S128x384 .f32) (k : Fin 384) (p : Fin 128) :
    transpose S384x128 [1, 0] w transposes_S128x384_p1_0_S384x128 (ix2 k p) = w (ix2 p k) :=
  transpose_ix2_apply w transposes_S128x384_p1_0_S384x128 k p

/-- The first store: `s` against the first weight half, plus the bias of the column. -/
theorem row_at (v0 : Vec Ideal S768x384 .f32) (v1 : Vec Ideal S128x384 .f32) (v5 : Vec Ideal S128 .f32) (r : Fin 768) (p : Fin 128) :
    k0_pay1 v0 v1 v5 (ix2 r p) = dotRow v0 v1 r p + v5 (ix1 p) := by
  unfold k0_pay1
  rw [addf_apply, matmul_at, shapeCast_self, broadcastTo_1b_ab_apply, shapeCast_a_1a_apply]
  unfold dotRow
  refine congrArg (· + v5 (ix1 p)) (Finset.sum_congr rfl fun k _ => ?_)
  rw [wT_at]

/-- The second store: `s` against the second weight half. -/
theorem col_at (v0 : Vec Ideal S768x384 .f32) (v3 : Vec Ideal S128x384 .f32) (r : Fin 768) (p : Fin 128) :
    k0_pay2 v0 v3 (ix2 r p) = dotRow v0 v3 r p := by
  unfold k0_pay2
  rw [matmul_at, shapeCast_self]
  unfold dotRow
  refine Finset.sum_congr rfl fun k _ => ?_
  rw [wT_at]

/-- The first store against whole arrays: blocks that ARE the arrays `A0`, `A1`, `A3`, read at an output index `i` whose
    coordinates are `(r, p)`, give the row array there. -/
theorem row_block (A0 : Ss.Idx → EReal) (A1 : Sh.Idx → EReal) (A3 : Sb.Idx → EReal)
    (x0 : Vec Ideal S768x384 .f32) (x1 : Vec Ideal S128x384 .f32) (x3 : Vec Ideal S128 .f32)
    (h0 : ∀ y, x0 y = A0 y) (h1 : ∀ y, x1 y = A1 y) (h3 : ∀ y, x3 y = A3 y)
    (r : Fin 768) (p : Fin 128) (i : S768x128.Idx) (hi0 : (i 0).val = r.val) (hi1 : (i 1).val = p.val) :
    k0_pay1 x0 x1 x3 (ix2 r p) = rowArr A0 A1 A3 i := by
  obtain rfl : x0 = A0 := funext h0
  obtain rfl : x1 = A1 := funext h1
  obtain rfl : x3 = A3 := funext h3
  obtain rfl : i = ix2 r p := funext fun d => Fin.ext (match d with | ⟨0, _⟩ => hi0 | ⟨1, _⟩ => hi1)
  exact row_at _ _ _ r p

/-- The second store against whole arrays, likewise. -/
theorem col_block (A0 : Ss.Idx → EReal) (A2 : Sh.Idx → EReal)
    (x0 : Vec Ideal S768x384 .f32) (x2 : Vec Ideal S128x384 .f32)
    (h0 : ∀ y, x0 y = A0 y) (h2 : ∀ y, x2 y = A2 y)
    (r : Fin 768) (p : Fin 128) (i : S768x128.Idx) (hi0 : (i 0).val = r.val) (hi1 : (i 1).val = p.val) :
    k0_pay2 x0 x2 (ix2 r p) = colArr A0 A2 i := by
  obtain rfl : x0 = A0 := funext h0
  obtain rfl : x2 = A2 := funext h2
  obtain rfl : i = ix2 r p := funext fun d => Fin.ext (match d with | ⟨0, _⟩ => hi0 | ⟨1, _⟩ => hi1)
  exact col_at _ _ r p

/-! ## From the one block to the array -/

section Array
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps at the grid's one point: every window's block index is 0 on every axis. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- What the point writes back through window 4 is its block of the row array of the arrays as the region finds them. -/
theorem flushed_row (c : Dev nD) (t : Fin cfg0.N) :
    (dat0 V c).flushed 4 t = ((cfg0.win 4).blk t).view.read (Elt Ideal)
      (rowArr (V c main_arg0) (V c main_v0) (V c main_arg3)) := by
  show (cfg0.win 4).cut (grid0.coords t) ((dat0 V c).after 4 t) = _
  rw [after0_4]
  unfold out0_4
  rw [View.canon_unit_zero zeros2]
  simp only [View.ld_unit_zero (S := S768x384) zeros2, View.ld_unit_zero (S := S128x384) zeros2,
    View.ld_unit_zero (S := S128) zeros1]
  obtain ⟨a00, a01, a10, a11, a20, a21, a30, a40, a41, a50, a51⟩ := idx_facts t
  funext j
  obtain ⟨r, p, rfl⟩ : ∃ (r : Fin 768) (p : Fin 128), j = ix2 r p := ⟨j 0, j 1, eq_ix2 j⟩
  show k0_pay1 (iblk0 V c 0 t) (iblk0 V c 1 t) (iblk0 V c 3 t) (ix2 r p)
    = rowArr (V c main_arg0) (V c main_v0) (V c main_arg3) (((cfg0.win 4).blk t).view.emb (ix2 r p))
  refine row_block _ _ _ _ _ _ (fun y => ?_) (fun y => ?_) (fun y => ?_) r p _ ?_ ?_
  · show V c main_arg0 (((cfg0.win 0).blk t).view.emb y) = V c main_arg0 y
    refine congrArg _ (funext fun d => Fin.ext ?_)
    match d with
    | ⟨0, _⟩ => show win0_0.index t (0 : Fin 2) * 768 + 1 * (y 0).val = (y 0).val; omega
    | ⟨1, _⟩ => show win0_0.index t (1 : Fin 2) * 384 + 1 * (y 1).val = (y 1).val; omega
  · show V c main_v0 (((cfg0.win 1).blk t).view.emb y) = V c main_v0 y
    refine congrArg _ (funext fun d => Fin.ext ?_)
    match d with
    | ⟨0, _⟩ => show win0_1.index t (0 : Fin 2) * 128 + 1 * (y 0).val = (y 0).val; omega
    | ⟨1, _⟩ => show win0_1.index t (1 : Fin 2) * 384 + 1 * (y 1).val = (y 1).val; omega
  · show V c main_arg3 (((cfg0.win 3).blk t).view.emb y) = V c main_arg3 y
    refine congrArg _ (funext fun d => Fin.ext ?_)
    match d with
    | ⟨0, _⟩ => show win0_3.index t (0 : Fin 1) * 128 + 1 * (y 0).val = (y 0).val; omega
  · show win0_4.index t (0 : Fin 2) * 768 + 1 * r.val = r.val; omega
  · show win0_4.index t (1 : Fin 2) * 128 + 1 * p.val = p.val; omega

/-- What the point writes back through window 5 is its block of the column array. -/
theorem flushed_col (c : Dev nD) (t : Fin cfg0.N) :
    (dat0 V c).flushed 5 t = ((cfg0.win 5).blk t).view.read (Elt Ideal)
      (colArr (V c main_arg0) (V c main_v1)) := by
  show (cfg0.win 5).cut (grid0.coords t) ((dat0 V c).after 5 t) = _
  rw [after0_5]
  unfold out0_5
  rw [View.canon_unit_zero zeros2]
  simp only [View.ld_unit_zero (S := S768x384) zeros2, View.ld_unit_zero (S := S128x384) zeros2]
  obtain ⟨a00, a01, a10, a11, a20, a21, a30, a40, a41, a50, a51⟩ := idx_facts t
  funext j
  obtain ⟨r, p, rfl⟩ : ∃ (r : Fin 768) (p : Fin 128), j = ix2 r p := ⟨j 0, j 1, eq_ix2 j⟩
  show k0_pay2 (iblk0 V c 0 t) (iblk0 V c 2 t) (ix2 r p)
    = colArr (V c main_arg0) (V c main_v1) (((cfg0.win 5).blk t).view.emb (ix2 r p))
  refine col_block _ _ _ _ (fun y => ?_) (fun y => ?_) r p _ ?_ ?_
  · show V c main_arg0 (((cfg0.win 0).blk t).view.emb y) = V c main_arg0 y
    refine congrArg _ (funext fun d => Fin.ext ?_)
    match d with
    | ⟨0, _⟩ => show win0_0.index t (0 : Fin 2) * 768 + 1 * (y 0).val = (y 0).val; omega
    | ⟨1, _⟩ => show win0_0.index t (1 : Fin 2) * 384 + 1 * (y 1).val = (y 1).val; omega
  · show V c main_v1 (((cfg0.win 2).blk t).view.emb y) = V c main_v1 y
    refine congrArg _ (funext fun d => Fin.ext ?_)
    match d with
    | ⟨0, _⟩ => show win0_2.index t (0 : Fin 2) * 128 + 1 * (y 0).val = (y 0).val; omega
    | ⟨1, _⟩ => show win0_2.index t (1 : Fin 2) * 384 + 1 * (y 1).val = (y 1).val; omega
  · show win0_5.index t (0 : Fin 2) * 768 + 1 * r.val = r.val; omega
  · show win0_5.index t (1 : Fin 2) * 128 + 1 * p.val = p.val; omega

/-- An index of the row array is in the point's block iff each coordinate is in the block's range on its axis. -/
theorem mem_blk_row (t : Fin cfg0.N) (i : S768x128.Idx) :
    i ∈ ((cfg0.win 4).blk t).view.set ↔ ∀ d : Fin 2, win0_4.index t d * S768x128.size d ≤ (i d).val
      ∧ (i d).val < win0_4.index t d * S768x128.size d + S768x128.size d := by
  show i ∈ ((View.whole main_v2_0).slice (win0_4.rect t)).set ↔ _
  rw [View.set_slice_whole, Rect.mem_set_unit]
  exact Iff.rfl

/-- The same for the column array. -/
theorem mem_blk_col (t : Fin cfg0.N) (i : S768x128.Idx) :
    i ∈ ((cfg0.win 5).blk t).view.set ↔ ∀ d : Fin 2, win0_5.index t d * S768x128.size d ≤ (i d).val
      ∧ (i d).val < win0_5.index t d * S768x128.size d + S768x128.size d := by
  show i ∈ ((View.whole main_v2_1).slice (win0_5.rect t)).set ↔ _
  rw [View.set_slice_whole, Rect.mem_set_unit]
  exact Iff.rfl

/-- The one block is the whole row array. -/
theorem cover_row (i : S768x128.Idx) :
    ∃ t : Fin cfg0.N, (cfg0.win 4).flush t = true ∧ i ∈ ((cfg0.win 4).blk t).view.set := by
  have hi0 : (i 0).val < 768 := (i 0).isLt
  have hi1 : (i 1).val < 128 := (i 1).isLt
  obtain ⟨a00, a01, a10, a11, a20, a21, a30, a40, a41, a50, a51⟩ := idx_facts t0_0
  refine ⟨t0_0, flush0_4 t0_0, ?_⟩
  rw [mem_blk_row]
  intro d
  match d with
  | ⟨0, _⟩ => show win0_4.index t0_0 (0 : Fin 2) * 768 ≤ (i 0).val ∧ (i 0).val < win0_4.index t0_0 (0 : Fin 2) * 768 + 768; omega
  | ⟨1, _⟩ => show win0_4.index t0_0 (1 : Fin 2) * 128 ≤ (i 1).val ∧ (i 1).val < win0_4.index t0_0 (1 : Fin 2) * 128 + 128; omega

/-- The one block is the whole column array. -/
theorem cover_col (i : S768x128.Idx) :
    ∃ t : Fin cfg0.N, (cfg0.win 5).flush t = true ∧ i ∈ ((cfg0.win 5).blk t).view.set := by
  have hi0 : (i 0).val < 768 := (i 0).isLt
  have hi1 : (i 1).val < 128 := (i 1).isLt
  obtain ⟨a00, a01, a10, a11, a20, a21, a30, a40, a41, a50, a51⟩ := idx_facts t0_0
  refine ⟨t0_0, flush0_5 t0_0, ?_⟩
  rw [mem_blk_col]
  intro d
  match d with
  | ⟨0, _⟩ => show win0_5.index t0_0 (0 : Fin 2) * 768 ≤ (i 0).val ∧ (i 0).val < win0_5.index t0_0 (0 : Fin 2) * 768 + 768; omega
  | ⟨1, _⟩ => show win0_5.index t0_0 (1 : Fin 2) * 128 ≤ (i 1).val ∧ (i 1).val < win0_5.index t0_0 (1 : Fin 2) * 128 + 128; omega

/-- THE ROW ARRAY after the region: `s` against the first weight half, plus the bias, of the arrays as found. -/
theorem final_row (c : Dev nD) :
    (dat0 V c).arrAt 4 cfg0.N = rowArr (V c main_arg0) (V c main_v0) (V c main_arg3) :=
  (dat0 V c).arrAt_eq_of_cover 4 _ (fun t _ => flushed_row V c t) cover_row

/-- THE COLUMN ARRAY after the region: `s` against the second weight half. -/
theorem final_col (c : Dev nD) :
    (dat0 V c).arrAt 5 cfg0.N = colArr (V c main_arg0) (V c main_v1) :=
  (dat0 V c).arrAt_eq_of_cover 5 _ (fun t _ => flushed_col V c t) cover_col

end Array

end Cert.KernelIdeal.ProjRegion

end
-- ==== Proof.Whole.lean ====
/-
  The idealized kernel's result array as ONE function of its argument arrays.

  The run leaves in the result buffer what the second region's write-backs fold to. That region finds `z` as launched (nothing
  before it writes the buffer) and, in its two small input arrays, what the first region left: the row array and the
  column array of `s`, of the two halves of the weight that the host sliced off before the first region, and of the bias.
  Composing the two regions' values gives the pair update of the launch contents.
-/
import proofs.«140986_j17609365914012_1_alg».proof.Proof.NamedRun
import proofs.«140986_j17609365914012_1_alg».proof.Proof.AddRegion
import proofs.«140986_j17609365914012_1_alg».proof.Proof.ProjRegion
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo Cert.PairSpec

variable (m : (ℓ : Loc nD τ sig) → Buf (Elt Ideal) ℓ) (ρ : Dev nD → PrngReg)

/-! ## What the first region finds: the host's two slices, and the arguments as launched -/

/-- The first weight half is columns `0 … 383` of the weight. -/
theorem entry_wa (c : Dev nD) : V1 m ρ c main_v0
    = extractStridedSlice S128x384 ![0, 0] (m ((c : Thread nD τ).loc main_arg2)) slices_S128x768_S128x384_0_0 := by
  dsimp only [V1, W1, hostOps0]
  after_results

/-- The second weight half is columns `384 … 767`. -/
theorem entry_wb (c : Dev nD) : V1 m ρ c main_v1
    = extractStridedSlice S128x384 ![0, 384] (m ((c : Thread nD τ).loc main_arg2)) slices_S128x768_S128x384_0_384 := by
  dsimp only [V1, W1, hostOps0]
  after_results

/-- The slices write neither `s`, `z` nor the bias. -/
theorem entry_s (c : Dev nD) : V1 m ρ c main_arg0 = m ((c : Thread nD τ).loc main_arg0) := by
  dsimp only [V1, W1, hostOps0]
  after_results
theorem entry_z (c : Dev nD) : V1 m ρ c main_arg1 = m ((c : Thread nD τ).loc main_arg1) := by
  dsimp only [V1, W1, hostOps0]
  after_results
theorem entry_b (c : Dev nD) : V1 m ρ c main_arg3 = m ((c : Thread nD τ).loc main_arg3) := by
  dsimp only [V1, W1, hostOps0]
  after_results

/-! ## What the second region finds -/

/-- The row array: `s` against the first half plus the bias. -/
theorem mid_row (c : Dev nD) : V2 m ρ c main_v2_0
    = rowArr (m ((c : Thread nD τ).loc main_arg0))
        (extractStridedSlice S128x384 ![0, 0] (m ((c : Thread nD τ).loc main_arg2)) slices_S128x768_S128x384_0_0)
        (m ((c : Thread nD τ).loc main_arg3)) := by
  refine (W2_arr m ρ c 4).trans ((ProjRegion.final_row (V1 m ρ) c).trans ?_)
  rw [entry_s, entry_wa, entry_b]

/-- The column array: `s` against the second half. -/
theorem mid_col (c : Dev nD) : V2 m ρ c main_v2_1
    = colArr (m ((c : Thread nD τ).loc main_arg0))
        (extractStridedSlice S128x384 ![0, 384] (m ((c : Thread nD τ).loc main_arg2)) slices_S128x768_S128x384_0_384) := by
  refine (W2_arr m ρ c 5).trans ((ProjRegion.final_col (V1 m ρ) c).trans ?_)
  rw [entry_s, entry_wb]

/-- `z` is no array of the first region: it is still as launched. -/
theorem mid_z (c : Dev nD) : V2 m ρ c main_arg1 = m ((c : Thread nD τ).loc main_arg1) :=
  (W2_of_ne m ρ c main_arg1 (by decide)).trans (entry_z m ρ c)

/-! ## The result -/

/-- The result buffer after the run holds the pair update of the launch contents. -/
theorem result (c : Dev nD) : W3 m ρ c (Proc.devRef .tc main_v3)
    = pairUpdate (m ((c : Thread nD τ).loc main_arg0)) (m ((c : Thread nD τ).loc main_arg1))
        (extractStridedSlice S128x384 ![0, 0] (m ((c : Thread nD τ).loc main_arg2)) slices_S128x768_S128x384_0_0)
        (extractStridedSlice S128x384 ![0, 384] (m ((c : Thread nD τ).loc main_arg2)) slices_S128x768_S128x384_0_384)
        (m ((c : Thread nD τ).loc main_arg3)) := by
  refine (W3_arr m ρ c 3).trans ((AddRegion.final (V2 m ρ) c).trans ?_)
  rw [mid_row, mid_col, mid_z]
  rfl

/-- The run of the idealized kernel, with the result array at the pair update of the arguments and the arguments
    unchanged. -/
theorem run : θ_run defs (onTc (τ := τ) (main (F := Ideal))) ⟨m, fun _ => 0, ρ⟩ (fun r => ∀ c : Dev nD,
      r.2.mem ((c.tc : Thread nD τ).loc main_v3)
        = pairUpdate (m ((c : Thread nD τ).loc main_arg0)) (m ((c : Thread nD τ).loc main_arg1))
            (extractStridedSlice S128x384 ![0, 0] (m ((c : Thread nD τ).loc main_arg2)) slices_S128x768_S128x384_0_0)
            (extractStridedSlice S128x384 ![0, 384] (m ((c : Thread nD τ).loc main_arg2)) slices_S128x768_S128x384_0_384)
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (Named.run_named m ρ)

end Cert.KernelIdeal.Whole

end
-- ==== Proof.RefValue.lean ====
/-
  The reference's result, read one operation at a time, is the pair update of the argument arrays.

  The reference slices the weight into its two halves, contracts `s` with each half over the feature axis
  (`dot_general`, contracting axis 1 of both operands), broadcasts the first product along the second axis of `z` and the
  second along the first, adds both to `z`, and adds the bias, broadcast over the two leading axes, last. Read at an
  index `(i, j, p)` that is `((z[i,j,p] + Σ_k s[i,k]·wa[p,k]) + Σ_k s[j,k]·wb[p,k]) + b[p]`: the pair update with the bias
  moved to the end.
-/
import proofs.«140986_j17609365914012_1_alg».proof.Proof.Gen.ReferenceIdeal.Read
import proofs.«140986_j17609365914012_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.PairSpec

/-- The row product at `(i, j, p)` reads `s` at `(i, k)` … -/
theorem lidx_row (i : S768x768x128.Idx) (k : Fin 384) :
    lidx_main_v2 (idx_main_v4 (idx_main_v5 i)) k = (ix2 (i 0) k : S768x384.Idx) :=
  funext fun a => Fin.ext (by match a with | ⟨0, _⟩ => rfl | ⟨1, _⟩ => rfl)

/-- … and the first weight half at `(p, k)`. -/
theorem ridx_row (i : S768x768x128.Idx) (k : Fin 384) :
    ridx_main_v2 (idx_main_v4 (idx_main_v5 i)) k = (ix2 (i 2) k : S128x384.Idx) :=
  funext fun a => Fin.ext (by match a with | ⟨0, _⟩ => rfl | ⟨1, _⟩ => rfl)

/-- The column product at `(i, j, p)` reads `s` at `(j, k)` … -/
theorem lidx_col (i : S768x768x128.Idx) (k : Fin 384) :
    lidx_main_v3 (idx_main_v7 (idx_main_v8 i)) k = (ix2 (i 1) k : S768x384.Idx) :=
  funext fun a => Fin.ext (by match a with | ⟨0, _⟩ => rfl | ⟨1, _⟩ => rfl)

/-- … and the second weight half at `(p, k)`. -/
theorem ridx_col (i : S768x768x128.Idx) (k : Fin 384) :
    ridx_main_v3 (idx_main_v7 (idx_main_v8 i)) k = (ix2 (i 2) k : S128x384.Idx) :=
  funext fun a => Fin.ext (by match a with | ⟨0, _⟩ => rfl | ⟨1, _⟩ => rfl)

/-- The bias is read at `p`. -/
theorem idx_bias (i : S768x768x128.Idx) :
    idx_main_v10 (idx_main_v11 i) = (ix1 (i 2) : S128.Idx) :=
  funext fun a => Fin.ext (by match a with | ⟨0, _⟩ => rfl)

/-- The reference's last stage is the pair update of its arguments, the weight's two halves being the two slices. -/
theorem result_eq (x0 : (⟨S768x384, .f32⟩ : BufTy).Contents (Elt Ideal)) (x1 : (⟨S768x768x128, .f32⟩ : BufTy).Contents (Elt Ideal))
    (x2 : (⟨S128x768, .f32⟩ : BufTy).Contents (Elt Ideal)) (x3 : (⟨S128, .f32⟩ : BufTy).Contents (Elt Ideal)) :
    val_main_v12 (F := Ideal) x0 x1 x2 x3
      = pairUpdate x0 x1 (val_main_v0 (F := Ideal) x2) (val_main_v1 (F := Ideal) x2) x3 := by
  funext i
  rw [pairUpdate_apply, bias_last]
  rw [val_main_v12_apply, val_main_v9_apply, val_main_v6_apply, val_main_v5_apply, val_main_v4_apply, val_main_v2_apply,
    val_main_v8_apply, val_main_v7_apply, val_main_v3_apply, val_main_v11_apply, val_main_v10_apply]
  simp only [lidx_row, ridx_row, lidx_col, ridx_col, idx_bias]
  rfl

end Cert.ReferenceIdeal.RefValue

end
-- ==== Proof.lean ====
/-
  The pair update `out[i, j, p] = z[i, j, p] + (s[i, :] · wa[p, :] + b[p]) + s[j, :] · wb[p, :]` computed by two kernels — a
  one-point kernel for the two projections, then a 4 × 6 grid of broadcast adds over `z` — against the reference
  `z + row[:, None, :] + col[None, :, :] + b` with the projections as two `dot_general`s on the host.

  Over the extended reals both programs end with the same array: each entry is the sum of the same four terms, the
  kernel grouping the bias with the row projection and the reference adding it last, and extended-real addition is
  commutative and associative (`Cert.PairSpec.bias_last`). The transposed matrix product into a zero accumulator and the
  host's contraction of axis 1 with axis 1 are the same sum `Σ_k s[r, k] · w[p, k]`.

  The kernel's value is read off its frame run region by region (`ProjRegion`, `AddRegion`) and composed through the
  buffer contents at the region boundaries (`Whole`); the reference's value is its run read one operation at a time
  (`RefValue`). The ideal pass rewrote nothing, so `preserves` asks nothing.
-/
import proofs.«140986_j17609365914012_1_alg».proof.Defs
import proofs.«140986_j17609365914012_1_alg».proof.Proof.Gen.Kernel
import proofs.«140986_j17609365914012_1_alg».proof.Proof.Gen.Kernel.Skeleton
import proofs.«140986_j17609365914012_1_alg».proof.Proof.Gen.Kernel.Launch
import proofs.«140986_j17609365914012_1_alg».proof.Proof.Gen.Kernel.Points
import proofs.«140986_j17609365914012_1_alg».proof.Proof.Gen.Kernel.Frame
import proofs.«140986_j17609365914012_1_alg».proof.Proof.Gen.KernelIdeal
import proofs.«140986_j17609365914012_1_alg».proof.Proof.Gen.KernelIdeal.Skeleton
import proofs.«140986_j17609365914012_1_alg».proof.Proof.Gen.KernelIdeal.Launch
import proofs.«140986_j17609365914012_1_alg».proof.Proof.Gen.KernelIdeal.Points
import proofs.«140986_j17609365914012_1_alg».proof.Proof.Gen.KernelIdeal.Frame
import proofs.«140986_j17609365914012_1_alg».proof.Proof.Gen.ReferenceIdeal
import proofs.«140986_j17609365914012_1_alg».proof.Proof.Gen.Pre_finite_inputs
import proofs.«140986_j17609365914012_1_alg».proof.Proof.Gen.ReferenceIdeal.Run
import proofs.«140986_j17609365914012_1_alg».proof.Proof.Gen.ReferenceIdeal.Read
import proofs.«140986_j17609365914012_1_alg».proof.Proof.Whole
import proofs.«140986_j17609365914012_1_alg».proof.Proof.RefValue
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the pair update of the arguments: the kernel by its two regions' values composed,
    the reference by its operations read at an index and the bias regrouped. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2,
    Cert.ReferenceIdeal.Read.val_main_v12_eq, Cert.ReferenceIdeal.RefValue.result_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
